-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3 : Shape := ⟨2, ![131072, 3]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S131072x3 : S_.BroadcastsInDim S131072x3 (![] : Fin 0 → Fin S131072x3.rank)
  reducesTo_S131072x3_S_d0_1 : S131072x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128x1 .f32) (main_arg8 : FVec F S1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S131072x3 .f32) (main_arg1 : FVec F S3x128 .f32) (main_arg2 : FVec F S128 .f32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S131072x3 .f32 := Host.absf main_arg0
  let main_cst : FVec F S_ .f32 := constant S_ .f32 0x7F800000#32
  let main_v1 : FVec F S131072x3 .f32 := broadcastInDim S131072x3 ![] bcast_S_S131072x3 main_cst
  let main_v2 : IVec S131072x3 1 := cmpf .olt main_v0 main_v1
  let main_c : IVec S_ 1 := constantI S_ 1 1#1
  let main_v3 : IVec S_ 1 := (fun x v => Host.reduce IntOp.andi x v reducesTo_S131072x3_S_d0_1 h_S_) main_v2 main_c
  let main_v4 : FVec F S3x128 .f32 := Host.absf main_arg1
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S131072x3 : Shape := ⟨2, ![131072, 3]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S131072x1 : Shape := ⟨2, ![131072, 1]⟩
abbrev S1024x3 : Shape := ⟨2, ![1024, 3]⟩
abbrev S1024x1 : Shape := ⟨2, ![1024, 1]⟩
abbrev S1024x128 : Shape := ⟨2, ![1024, 128]⟩

abbrev nBuf : Space → Nat
  | .hbm => 14
  | .vmem => 12
  | .smem => 0
  | _ => 0

abbrev bufTy : (tb : Table) → Fin (tcTables nBuf tb) → BufTy
  | .hbm, ⟨0, _⟩ => ⟨S131072x3, .f32⟩
  | .hbm, ⟨1, _⟩ => ⟨S3x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x1, .f32⟩
  | .hbm, ⟨13, _⟩ => ⟨S131072x1, .f32⟩
  | .local _ .vmem, ⟨0, _⟩ => ⟨S1024x3, .f32⟩
  | .local _ .vmem, ⟨1, _⟩ => ⟨S1024x3, .f32⟩
  | .local _ .vmem, ⟨2, _⟩ => ⟨S3x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x1, .f32⟩
  | .local _ .vmem, ⟨9, _⟩ => ⟨S1x1, .f32⟩
  | .local _ .vmem, ⟨10, _⟩ => ⟨S1024x1, .f32⟩
  | .local _ .vmem, ⟨11, _⟩ => ⟨S1024x1, .f32⟩
  | _, _ => ⟨S131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S128_S1x128 : S128.ShapeCasts S1x128
  shapeCasts_S1_S1x1 : S1.ShapeCasts S1x1
  inb_S1024x3_S1024x3_0_0 : ∀ a, (![0, 0] : Fin 2 → Nat) a + S1024x3.size a ≤ S1024x3.size a
  h_S1024x3 : 0 < S1024x3.numel
  inb_S3x128_S3x128_0_0 : ∀ a, (![0, 0] : Fin 2 → Nat) a + S3x128.size a ≤ S3x128.size a
  h_S3x128 : 0 < S3x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x3_S3x128_S1024x128_1_0_0_1_n_n_wf : DotDims.WF S1024x3 S3x128 S1024x128 [1] [0] [0] [1] [] []
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S131072x3.size a
  hwx0_0 : ∀ i : grid0.Coords, EltTy.bits .f32 = 32 ∨ (Rect.block (s := S131072x3) S1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S131072x1.size a
  hwx0_9 : ∀ i : grid0.Coords, EltTy.bits .f32 = 32 ∨ (Rect.block (s := S131072x1) S1024x1.size (cc0_transform_9 i) (hinb0_9 i)).WholeWords (EltTy.packing .f32)

variable [Facts₀]

def dot_S1024x3_S3x128_S1024x128_1_0_0_1_n_n : DotDims S1024x3 S3x128 S1024x128 where
  lhsContracting := [1]
  rhsContracting := [0]
  lhsNonContracting := [0]
  rhsNonContracting := [1]
  lhsBatch := []
  rhsBatch := []
  wf := dot_S1024x3_S3x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1024x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x3 : Shape := ⟨2, ![131072, 3]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S131072x128 : Shape := ⟨2, ![131072, 128]⟩
abbrev S1x128 : Shape := ⟨2, ![1, 128]⟩
abbrev S131072x1 : Shape := ⟨2, ![131072, 1]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S131072x3, .f32⟩
  | .hbm, ⟨1, _⟩ => ⟨S3x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S131072x128, .f32⟩
  | .hbm, ⟨10, _⟩ => ⟨S1x128, .f32⟩
  | .hbm, ⟨11, _⟩ => ⟨S131072x128, .f32⟩
  | .hbm, ⟨12, _⟩ => ⟨S131072x128, .f32⟩
  | .hbm, ⟨13, _⟩ => ⟨S131072x128, .f32⟩
  | .hbm, ⟨14, _⟩ => ⟨S131072x128, .f32⟩
  | .hbm, ⟨15, _⟩ => ⟨S1x128, .f32⟩
  | .hbm, ⟨16, _⟩ => ⟨S131072x128, .f32⟩
  | .hbm, ⟨17, _⟩ => ⟨S131072x128, .f32⟩
  | .hbm, ⟨18, _⟩ => ⟨S131072x128, .f32⟩
  | .hbm, ⟨19, _⟩ => ⟨S131072x128, .f32⟩
  | .hbm, ⟨20, _⟩ => ⟨S1x128, .f32⟩
  | .hbm, ⟨21, _⟩ => ⟨S131072x128, .f32⟩
  | .hbm, ⟨22, _⟩ => ⟨S131072x128, .f32⟩
  | .hbm, ⟨23, _⟩ => ⟨S131072x128, .f32⟩
  | .hbm, ⟨24, _⟩ => ⟨S131072x1, .f32⟩
  | .hbm, ⟨25, _⟩ => ⟨S1x1, .f32⟩
  | .hbm, ⟨26, _⟩ => ⟨S131072x1, .f32⟩
  | .hbm, ⟨27, _⟩ => ⟨S131072x1, .f32⟩
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  dot_S131072x3_S3x128_S131072x128_1_0_0_1_n_n_wf : DotDims.WF S131072x3 S3x128 S131072x128 [1] [0] [0] [1] [] []
  dot_S131072x128_S128x128_S131072x128_1_0_0_1_n_n_wf : DotDims.WF S131072x128 S128x128 S131072x128 [1] [0] [0] [1] [] []
  dot_S131072x128_S128x1_S131072x1_1_0_0_1_n_n_wf : DotDims.WF S131072x128 S128x1 S131072x1 [1] [0] [0] [1] [] []

variable [Facts₀]

def dot_S131072x3_S3x128_S131072x128_1_0_0_1_n_n : DotDims S131072x3 S3x128 S131072x128 where
  lhsContracting := [1]
  rhsContracting := [0]
  lhsNonContracting := [0]
  rhsNonContracting := [1]
  lhsBatch := []
  rhsBatch := []
  wf := dot_S131072x3_S3x128_S131072x128_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x128_S128x1_S131072x1_1_0_0_1_n_n : DotDims S131072x128 S128x1 S131072x1 where
  lhsContracting := [1]
  rhsContracting := [0]
  lhsNonContracting := [0]
  rhsNonContracting := [1]
  lhsBatch := []
  rhsBatch := []
  wf := dot_S131072x128_S128x1_S131072x1_1_0_0_1_n_n_wf

class Facts : Prop extends Facts₀ where

variable [Facts]
-- ==== Proof.Mlp.lean ====
/-
  The function both programs compute, row by row: a perceptron 3 → 128 → 128 → 128 → 1 on the
  extended reals. A hidden unit is tanh of an affine form of the layer below it; the output unit is
  affine in the third hidden layer. Row r of the result depends only on row r of the input and on
  the weights and biases, so a block of consecutive rows of the result is the same function of the
  same block of rows of the input: that is why tiling the rows changes nothing.
-/
import Idealize.ShloMosaic.PureOps.Ideal
import Idealize.ShloMosaic.Lib.ValueIdx

noncomputable section

open scoped BigOperators

namespace Cert.Mlp

open Idealize.ShloMosaic Idealize.ShloMosaic.ValueIdx

/-- Unit `n` of a dense layer with `K` inputs and `N` outputs: the sum over the inputs of the row
    `h` below it times column `n` of the weights, plus the unit's bias. -/
def affine {K N : Nat} (h : Fin K → EReal) (W : (⟨2, ![K, N]⟩ : Shape).Idx → EReal)
    (b : (⟨1, ![N]⟩ : Shape).Idx → EReal) (n : Fin N) : EReal :=
  (∑ k : Fin K, h k * W (ix2 k n)) + b (ix1 n)

/-- A hidden unit: tanh of the affine unit (`tanh ⊥ = -1`, `tanh ⊤ = 1`). -/
def tanhUnit {K N : Nat} (h : Fin K → EReal) (W : (⟨2, ![K, N]⟩ : Shape).Idx → EReal)
    (b : (⟨1, ![N]⟩ : Shape).Idx → EReal) (n : Fin N) : EReal :=
  Ideal.tanh (affine h W b n)

/-- The three hidden layers on one input row `x`, innermost first. -/
def hid1 (x : Fin 3 → EReal) (W1 : (⟨2, ![3, 128]⟩ : Shape).Idx → EReal) (b1 : (⟨1, ![128]⟩ : Shape).Idx → EReal) :
    Fin 128 → EReal := tanhUnit x W1 b1
def hid2 (x : Fin 3 → EReal) (W1 : (⟨2, ![3, 128]⟩ : Shape).Idx → EReal) (b1 : (⟨1, ![128]⟩ : Shape).Idx → EReal)
    (W2 : (⟨2, ![128, 128]⟩ : Shape).Idx → EReal) (b2 : (⟨1, ![128]⟩ : Shape).Idx → EReal) : Fin 128 → EReal :=
  tanhUnit (hid1 x W1 b1) W2 b2
def hid3 (x : Fin 3 → EReal) (W1 : (⟨2, ![3, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal) : Fin 128 → EReal :=
  tanhUnit (hid2 x W1 b1 W2 b2) W3 b3

/-- The perceptron on one input row: its one output unit (`q : Fin 1`). -/
def row (x : Fin 3 → EReal) (W1 : (⟨2, ![3, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (W4 : (⟨2, ![128, 1]⟩ : Shape).Idx → EReal) (b4 : (⟨1, ![1]⟩ : Shape).Idx → EReal) (q : Fin 1) : EReal :=
  affine (hid3 x W1 b1 W2 b2 W3 b3) W4 b4 q

/-- Row `r` of a matrix with three columns. -/
def rowOf {R : Nat} (X : (⟨2, ![R, 3]⟩ : Shape).Idx → EReal) (r : Fin R) : Fin 3 → EReal := fun j => X (ix2 r j)

/-- The whole result, for a batch of `R` rows: entry `(r, q)` is the perceptron on row `r` of the input. -/
def batch {R : Nat} (X : (⟨2, ![R, 3]⟩ : Shape).Idx → EReal)
    (W1 : (⟨2, ![3, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (W4 : (⟨2, ![128, 1]⟩ : Shape).Idx → EReal) (b4 : (⟨1, ![1]⟩ : Shape).Idx → EReal) :
    (⟨2, ![R, 1]⟩ : Shape).Idx → EReal :=
  fun i => row (rowOf X (i 0)) W1 b1 W2 b2 W3 b3 W4 b4 (i 1)

/-- The batch at an index given by its coordinates. -/
theorem batch_ix2 {R : Nat} (X : (⟨2, ![R, 3]⟩ : Shape).Idx → EReal)
    (W1 : (⟨2, ![3, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (W4 : (⟨2, ![128, 1]⟩ : Shape).Idx → EReal) (b4 : (⟨1, ![1]⟩ : Shape).Idx → EReal) (r : Fin R) (q : Fin 1) :
    batch X W1 b1 W2 b2 W3 b3 W4 b4 (ix2 r q) = row (rowOf X r) W1 b1 W2 b2 W3 b3 W4 b4 q := rfl

end Cert.Mlp

end
-- ==== Proof.RefAsMlp.lean ====
/-
  The reference computes the perceptron of `Cert.Mlp`, entry by entry. Its program is a chain of
  matrix products, bias additions and tanh over the whole batch; read at entry `(r, n)`, a product
  is the sum over the contracted coordinate of row `r` of the left factor times column `n` of the
  right one, a bias broadcast over the rows reads the bias at `n`, and addition and tanh act entry
  by entry. So each hidden stage at `(r, n)` is hidden unit `n` of row `r`, and the result at
  `(r, q)` is the perceptron on row `r`. No algebraic law is used: the sums are the same sums.
-/
import proofs.«107435_g62079457296719_cont_9to1c4b_771_2_alg».proof.Proof.Gen.ReferenceIdeal.Read
import proofs.«107435_g62079457296719_cont_9to1c4b_771_2_alg».proof.Proof.Mlp

noncomputable section

open scoped BigOperators

namespace Cert.ReferenceIdeal.AsMlp

open Cert.ReferenceIdeal Cert.ReferenceIdeal.Gen Cert.ReferenceIdeal.Read
open Idealize.ShloMosaic Idealize.ShloMosaic.ValueIdx Cert.Mlp

variable (X : S131072x3.Idx → EReal) (W1 : S3x128.Idx → EReal) (b1 : S128.Idx → EReal)
  (W2 : S128x128.Idx → EReal) (b2 : S128.Idx → EReal) (W3 : S128x128.Idx → EReal) (b3 : S128.Idx → EReal)
  (W4 : S128x1.Idx → EReal) (b4 : S1.Idx → EReal)

/-- The first hidden stage at `(r, n)`: tanh of row `r` of the input against column `n` of the
    first weights, plus the first bias at `n`. -/
theorem stage1 (r : Fin 131072) (n : Fin 128) :
    val_main_v4 (F := Ideal) X W1 b1 (ix2 r n) = hid1 (rowOf X r) W1 b1 n := by
  have el : ∀ k : Fin 3, lidx_main_v0 (ix2 r n) k = ix2 r k := fun k =>
    funext fun a => by match a with | ⟨0, _⟩ => rfl | ⟨1, _⟩ => rfl
  have er : ∀ k : Fin 3, ridx_main_v0 (ix2 r n) k = ix2 k n := fun k =>
    funext fun a => by match a with | ⟨0, _⟩ => rfl | ⟨1, _⟩ => rfl
  have eb : idx_main_v1 (idx_main_v2 (ix2 r n)) = ix1 n :=
    funext fun a => by match a with | ⟨0, _⟩ => rfl
  rw [val_main_v4_apply, val_main_v3_apply, val_main_v0_apply, val_main_v2_apply, val_main_v1_apply]
  simp only [el, er, eb, hid1, tanhUnit, affine, rowOf, Ideal.hostUnary_tanh_def, Ideal.addf_def]

/-- The second hidden stage at `(r, n)`: the same with the first hidden layer of row `r` below it. -/
theorem stage2 (r : Fin 131072) (n : Fin 128) :
    val_main_v9 (F := Ideal) X W1 b1 W2 b2 (ix2 r n) = hid2 (rowOf X r) W1 b1 W2 b2 n := by
  have el : ∀ k : Fin 128, lidx_main_v5 (ix2 r n) k = ix2 r k := fun k =>
    funext fun a => by match a with | ⟨0, _⟩ => rfl | ⟨1, _⟩ => rfl
  have er : ∀ k : Fin 128, ridx_main_v5 (ix2 r n) k = ix2 k n := fun k =>
    funext fun a => by match a with | ⟨0, _⟩ => rfl | ⟨1, _⟩ => rfl
  have eb : idx_main_v6 (idx_main_v7 (ix2 r n)) = ix1 n :=
    funext fun a => by match a with | ⟨0, _⟩ => rfl
  rw [val_main_v9_apply, val_main_v8_apply, val_main_v5_apply, val_main_v7_apply, val_main_v6_apply]
  simp only [el, er, eb, stage1, hid2, tanhUnit, affine, Ideal.hostUnary_tanh_def, Ideal.addf_def]

/-- The third hidden stage at `(r, n)`. -/
theorem stage3 (r : Fin 131072) (n : Fin 128) :
    val_main_v14 (F := Ideal) X W1 b1 W2 b2 W3 b3 (ix2 r n) = hid3 (rowOf X r) W1 b1 W2 b2 W3 b3 n := by
  have el : ∀ k : Fin 128, lidx_main_v10 (ix2 r n) k = ix2 r k := fun k =>
    funext fun a => by match a with | ⟨0, _⟩ => rfl | ⟨1, _⟩ => rfl
  have er : ∀ k : Fin 128, ridx_main_v10 (ix2 r n) k = ix2 k n := fun k =>
    funext fun a => by match a with | ⟨0, _⟩ => rfl | ⟨1, _⟩ => rfl
  have eb : idx_main_v11 (idx_main_v12 (ix2 r n)) = ix1 n :=
    funext fun a => by match a with | ⟨0, _⟩ => rfl
  rw [val_main_v14_apply, val_main_v13_apply, val_main_v10_apply, val_main_v12_apply, val_main_v11_apply]
  simp only [el, er, eb, stage2, hid3, tanhUnit, affine, Ideal.hostUnary_tanh_def, Ideal.addf_def]

/-- The result at `(r, q)`: the output unit over the third hidden layer of row `r`. The output bias has
    one entry, which the broadcast reads whatever `q : Fin 1` is. -/
theorem result_at (r : Fin 131072) (q : Fin 1) :
    val_main_v18 (F := Ideal) X W1 b1 W2 b2 W3 b3 W4 b4 (ix2 r q) = row (rowOf X r) W1 b1 W2 b2 W3 b3 W4 b4 q := by
  have el : ∀ k : Fin 128, lidx_main_v15 (ix2 r q) k = ix2 r k := fun k =>
    funext fun a => by match a with | ⟨0, _⟩ => rfl | ⟨1, _⟩ => rfl
  have er : ∀ k : Fin 128, ridx_main_v15 (ix2 r q) k = ix2 k q := fun k =>
    funext fun a => by match a with | ⟨0, _⟩ => rfl | ⟨1, _⟩ => rfl
  have eb : idx_main_v16 (idx_main_v17 (ix2 r q)) = ix1 q :=
    funext fun a => by match a with | ⟨0, _⟩ => exact Fin.ext (by have := q.isLt; show 0 = q.val; omega)
  rw [val_main_v18_apply, val_main_v15_apply, val_main_v17_apply, val_main_v16_apply]
  simp only [el, er, eb, stage3, row, affine, Ideal.addf_def]

/-- The reference's whole result is the perceptron over the batch. -/
theorem result_eq :
    val_main_v18 (F := Ideal) X W1 b1 W2 b2 W3 b3 W4 b4 = batch X W1 b1 W2 b2 W3 b3 W4 b4 := by
  funext i
  obtain ⟨r, q, rfl⟩ : ∃ (r : Fin 131072) (q : Fin 1), i = ix2 r q := ⟨i 0, i 1, eq_ix2 i⟩
  rw [batch_ix2]
  exact result_at X W1 b1 W2 b2 W3 b3 W4 b4 r q

end Cert.ReferenceIdeal.AsMlp

end
-- ==== Proof.KernelProducts.lean ====
/-
  The kernel's three matrix products read at an entry. A product into a zero accumulator, read at
  entry `(p, n)`, is the sum over the contracted coordinate `k` of the left factor at `(p, k)` times
  the right factor at `(k, n)`: the contraction's one-axis index is its coordinate, and the product's
  operand indices at `(p, n)` and `k` are `(p, k)` and `(k, n)`, axis by axis.
-/
import proofs.«107435_g62079457296719_cont_9to1c4b_771_2_alg».proof.Proof.Gen.KernelIdeal
import Idealize.ShloMosaic.Lib.ValueIdx
import Idealize.ShloMosaic.PureOps.Ideal.Laws

noncomputable section

open scoped BigOperators

namespace Cert.KernelIdeal.Products

open Cert.KernelIdeal Cert.KernelIdeal.Gen Idealize.ShloMosaic Idealize.ShloMosaic.ValueIdx

/-! ## Rows of 3 against a 3 × 128 matrix -/

theorem lhs_in_0 (i : S1024x128.Idx) (q : dot_S1024x3_S3x128_S1024x128_1_0_0_1_n_n.contr.Idx) :
    (dot_S1024x3_S3x128_S1024x128_1_0_0_1_n_n.lhsIdx i q 0).val = (i 0).val := by
  unfold DotDims.lhsIdx
  rw [dif_neg (show ¬(0 : Fin S1024x3.rank) ∈ dot_S1024x3_S3x128_S1024x128_1_0_0_1_n_n.lhsBatch by decide), dif_pos (show (0 : Fin S1024x3.rank) ∈ dot_S1024x3_S3x128_S1024x128_1_0_0_1_n_n.lhsNonContracting by decide)]
  rfl
theorem lhs_in_1 (i : S1024x128.Idx) (q : dot_S1024x3_S3x128_S1024x128_1_0_0_1_n_n.contr.Idx) :
    (dot_S1024x3_S3x128_S1024x128_1_0_0_1_n_n.lhsIdx i q 1).val = (q ⟨0, by decide⟩).val :=
  dot_S1024x3_S3x128_S1024x128_1_0_0_1_n_n.lhsIdx_val_of_single rfl i q
theorem rhs_in_0 (i : S1024x128.Idx) (q : dot_S1024x3_S3x128_S1024x128_1_0_0_1_n_n.contr.Idx) :
    (dot_S1024x3_S3x128_S1024x128_1_0_0_1_n_n.rhsIdx i q 0).val = (q ⟨0, by decide⟩).val :=
  dot_S1024x3_S3x128_S1024x128_1_0_0_1_n_n.rhsIdx_val_of_single rfl i q
theorem rhs_in_1 (i : S1024x128.Idx) (q : dot_S1024x3_S3x128_S1024x128_1_0_0_1_n_n.contr.Idx) :
    (dot_S1024x3_S3x128_S1024x128_1_0_0_1_n_n.rhsIdx i q 1).val = (i 1).val := by
  unfold DotDims.rhsIdx
  rw [dif_neg (show ¬(1 : Fin S3x128.rank) ∈ dot_S1024x3_S3x128_S1024x128_1_0_0_1_n_n.rhsBatch by decide), dif_pos (show (1 : Fin S3x128.rank) ∈ dot_S1024x3_S3x128_S1024x128_1_0_0_1_n_n.rhsNonContracting by decide)]
  rfl

/-- The first product at `(p, n)`: row `p` of the block of inputs against column `n` of the first weights. -/
theorem product_in (l : FVec Ideal S1024x3 .f32) (w : FVec Ideal S3x128 .f32) (p : Fin 1024) (n : Fin 128) :
    matmul dot_S1024x3_S3x128_S1024x128_1_0_0_1_n_n none l w (constant S1024x128 .f32 0x00000000#32) (ix2 p n)
      = ∑ k : Fin 3, l (ix2 p k) * w (ix2 k n) := by
  simp only [matmul]
  rw [Ideal.matmul_constant_zero_apply, ← Equiv.sum_comp (contrEquiv1 dot_S1024x3_S3x128_S1024x128_1_0_0_1_n_n 3 rfl rfl).symm]
  refine Finset.sum_congr rfl fun k _ => ?_
  have hk := contrEquiv1_symm_val dot_S1024x3_S3x128_S1024x128_1_0_0_1_n_n 3 rfl rfl k
  have el : dot_S1024x3_S3x128_S1024x128_1_0_0_1_n_n.lhsIdx (ix2 p n) ((contrEquiv1 dot_S1024x3_S3x128_S1024x128_1_0_0_1_n_n 3 rfl rfl).symm k) = ix2 p k := funext fun a => Fin.ext (by
    match a with
    | ⟨0, _⟩ => exact lhs_in_0 _ _
    | ⟨1, _⟩ => exact (lhs_in_1 _ _).trans hk)
  have er : dot_S1024x3_S3x128_S1024x128_1_0_0_1_n_n.rhsIdx (ix2 p n) ((contrEquiv1 dot_S1024x3_S3x128_S1024x128_1_0_0_1_n_n 3 rfl rfl).symm k) = ix2 k n := funext fun a => Fin.ext (by
    match a with
    | ⟨0, _⟩ => exact (rhs_in_0 _ _).trans hk
    | ⟨1, _⟩ => exact rhs_in_1 _ _)
  rw [el, er]

/-! ## Rows of 128 against a 128 × 128 matrix (the second and third layers) -/

theorem lhs_mid_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_mid_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_mid_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_mid_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A middle product at `(p, n)`: row `p` of the hidden block against column `n` of the layer's weights. -/
theorem product_mid (l : FVec Ideal S1024x128 .f32) (w : FVec Ideal S128x128 .f32) (p : Fin 1024) (n : Fin 128) :
    matmul dot_S1024x128_S128x128_S1024x128_1_0_0_1_n_n none l w (constant S1024x128 .f32 0x00000000#32) (ix2 p n)
      = ∑ k : Fin 128, l (ix2 p k) * w (ix2 k n) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p n) ((contrEquiv1 dot_S1024x128_S128x128_S1024x128_1_0_0_1_n_n 128 rfl rfl).symm k) = ix2 p k := funext fun a => Fin.ext (by
    match a with
    | ⟨0, _⟩ => exact lhs_mid_0 _ _
    | ⟨1, _⟩ => exact (lhs_mid_1 _ _).trans hk)
  have er : dot_S1024x128_S128x128_S1024x128_1_0_0_1_n_n.rhsIdx (ix2 p n) ((contrEquiv1 dot_S1024x128_S128x128_S1024x128_1_0_0_1_n_n 128 rfl rfl).symm k) = ix2 k n := funext fun a => Fin.ext (by
    match a with
    | ⟨0, _⟩ => exact (rhs_mid_0 _ _).trans hk
    | ⟨1, _⟩ => exact rhs_mid_1 _ _)
  rw [el, er]

/-! ## Rows of 128 against a 128 × 1 matrix (the output layer) -/

theorem lhs_out_0 (i : S1024x1.Idx) (q : dot_S1024x128_S128x1_S1024x1_1_0_0_1_n_n.contr.Idx) :
    (dot_S1024x128_S128x1_S1024x1_1_0_0_1_n_n.lhsIdx i q 0).val = (i 0).val := by
  unfold DotDims.lhsIdx
  rw [dif_neg (show ¬(0 : Fin S1024x128.rank) ∈ dot_S1024x128_S128x1_S1024x1_1_0_0_1_n_n.lhsBatch by decide), dif_pos (show (0 : Fin S1024x128.rank) ∈ dot_S1024x128_S128x1_S1024x1_1_0_0_1_n_n.lhsNonContracting by decide)]
  rfl
theorem lhs_out_1 (i : S1024x1.Idx) (q : dot_S1024x128_S128x1_S1024x1_1_0_0_1_n_n.contr.Idx) :
    (dot_S1024x128_S128x1_S1024x1_1_0_0_1_n_n.lhsIdx i q 1).val = (q ⟨0, by decide⟩).val :=
  dot_S1024x128_S128x1_S1024x1_1_0_0_1_n_n.lhsIdx_val_of_single rfl i q
theorem rhs_out_0 (i : S1024x1.Idx) (q : dot_S1024x128_S128x1_S1024x1_1_0_0_1_n_n.contr.Idx) :
    (dot_S1024x128_S128x1_S1024x1_1_0_0_1_n_n.rhsIdx i q 0).val = (q ⟨0, by decide⟩).val :=
  dot_S1024x128_S128x1_S1024x1_1_0_0_1_n_n.rhsIdx_val_of_single rfl i q
theorem rhs_out_1 (i : S1024x1.Idx) (q : dot_S1024x128_S128x1_S1024x1_1_0_0_1_n_n.contr.Idx) :
    (dot_S1024x128_S128x1_S1024x1_1_0_0_1_n_n.rhsIdx i q 1).val = (i 1).val := by
  unfold DotDims.rhsIdx
  rw [dif_neg (show ¬(1 : Fin S128x1.rank) ∈ dot_S1024x128_S128x1_S1024x1_1_0_0_1_n_n.rhsBatch by decide), dif_pos (show (1 : Fin S128x1.rank) ∈ dot_S1024x128_S128x1_S1024x1_1_0_0_1_n_n.rhsNonContracting by decide)]
  rfl

/-- The last product at `(p, q)`: row `p` of the third hidden block against the one column of the output weights. -/
theorem product_out (l : FVec Ideal S1024x128 .f32) (w : FVec Ideal S128x1 .f32) (p : Fin 1024) (q : Fin 1) :
    matmul dot_S1024x128_S128x1_S1024x1_1_0_0_1_n_n none l w (constant S1024x1 .f32 0x00000000#32) (ix2 p q)
      = ∑ k : Fin 128, l (ix2 p k) * w (ix2 k q) := by
  simp only [matmul]
  rw [Ideal.matmul_constant_zero_apply, ← Equiv.sum_comp (contrEquiv1 dot_S1024x128_S128x1_S1024x1_1_0_0_1_n_n 128 rfl rfl).symm]
  refine Finset.sum_congr rfl fun k _ => ?_
  have hk := contrEquiv1_symm_val dot_S1024x128_S128x1_S1024x1_1_0_0_1_n_n 128 rfl rfl k
  have el : dot_S1024x128_S128x1_S1024x1_1_0_0_1_n_n.lhsIdx (ix2 p q) ((contrEquiv1 dot_S1024x128_S128x1_S1024x1_1_0_0_1_n_n 128 rfl rfl).symm k) = ix2 p k := funext fun a => Fin.ext (by
    match a with
    | ⟨0, _⟩ => exact lhs_out_0 _ _
    | ⟨1, _⟩ => exact (lhs_out_1 _ _).trans hk)
  have er : dot_S1024x128_S128x1_S1024x1_1_0_0_1_n_n.rhsIdx (ix2 p q) ((contrEquiv1 dot_S1024x128_S128x1_S1024x1_1_0_0_1_n_n 128 rfl rfl).symm k) = ix2 k q := funext fun a => Fin.ext (by
    match a with
    | ⟨0, _⟩ => exact (rhs_out_0 _ _).trans hk
    | ⟨1, _⟩ => exact rhs_out_1 _ _)
  rw [el, er]

end Cert.KernelIdeal.Products

end
-- ==== Proof.KernelRow.lean ====
/-
  What the kernel's body stores, entry by entry. The body works on a block of 1024 rows: three
  times it multiplies the block by a weight matrix, adds the bias row broadcast over the block's
  rows, and takes tanh; a fourth product and bias give the stored block. Entry `(p, n)` of each
  hidden block is therefore the hidden unit `n` of row `p` of the input block, and the stored
  entry `(p, q)` is the perceptron of `Cert.Mlp` on row `p`. The biases reach the body as
  1 × N rows; read as vectors of N entries they are the biases of the specification.
-/
import proofs.«107435_g62079457296719_cont_9to1c4b_771_2_alg».proof.Proof.Gen.KernelIdeal.Skeleton
import proofs.«107435_g62079457296719_cont_9to1c4b_771_2_alg».proof.Proof.KernelProducts
import proofs.«107435_g62079457296719_cont_9to1c4b_771_2_alg».proof.Proof.Mlp
import Idealize.ShloMosaic.Lib.Pipeline.Value

noncomputable section

open scoped BigOperators

namespace Cert.KernelIdeal.Row

open Cert.KernelIdeal Cert.KernelIdeal.Gen Cert.KernelIdeal.Products
open Idealize.ShloMosaic Idealize.ShloMosaic.ValueIdx Cert.Mlp

/-- A 1 × N row read as a vector of N entries. -/
def asVector {N : Nat} (b : (⟨2, ![1, N]⟩ : Shape).Idx → EReal) : (⟨1, ![N]⟩ : Shape).Idx → EReal :=
  fun j => b (ix2 0 (j 0))

/-- A bias row of 128 entries broadcast over the block's 1024 rows reads, at `(p, n)`, its entry `n`. -/
theorem bias_mid (v : FVec Ideal S1x128 .f32) (hc : S1x128.ShapeCasts S1x128) (hb : S1x128.Broadcasts S1024x128)
    (p : Fin 1024) (n : Fin 128) :
    broadcastTo S1024x128 (shapeCast S1x128 v hc) hb (ix2 p n) = asVector v (ix1 n) := by
  rw [shapeCast_self]
  exact broadcastTo_apply v hb (ix2 p n) (ix2 0 n) (fun a => match a with
    | ⟨0, _⟩ => by show 0 = if (1 : Nat) = 1 then 0 else p.val; rw [if_pos rfl]
    | ⟨1, _⟩ => by show n.val = if (128 : Nat) = 1 then 0 else n.val; rw [if_neg (by decide)])

/-- The output bias, one entry, broadcast over the block's rows reads that entry everywhere. -/
theorem bias_out (v : FVec Ideal S1x1 .f32) (hc : S1x1.ShapeCasts S1x1) (hb : S1x1.Broadcasts S1024x1)
    (p : Fin 1024) (q : Fin 1) :
    broadcastTo S1024x1 (shapeCast S1x1 v hc) hb (ix2 p q) = asVector v (ix1 q) := by
  rw [shapeCast_self]
  exact broadcastTo_apply v hb (ix2 p q) (ix2 0 q) (fun a => match a with
    | ⟨0, _⟩ => by show 0 = if (1 : Nat) = 1 then 0 else p.val; rw [if_pos rfl]
    | ⟨1, _⟩ => by
        show q.val = if (1 : Nat) = 1 then 0 else q.val
        rw [if_pos rfl]; have := q.isLt; omega)

variable (x0 : Vec Ideal S1024x3 .f32) (x1 : Vec Ideal S3x128 .f32) (x3 : Vec Ideal S1x128 .f32)
  (x8 : Vec Ideal S128x128 .f32) (x10 : Vec Ideal S1x128 .f32) (x15 : Vec Ideal S128x128 .f32)
  (x17 : Vec Ideal S1x128 .f32) (x22 : Vec Ideal S128x1 .f32) (x24 : Vec Ideal S1x1 .f32)

/-- The first hidden block the body computes from the block of inputs. -/
def act1 : FVec Ideal S1024x128 .f32 :=
  tanh (addf (matmul (φ₁ := .f32) (φ₂ := .f32) dot_S1024x3_S3x128_S1024x128_1_0_0_1_n_n none x0 x1 (constant S1024x128 .f32 0x00000000#32))
    (broadcastTo S1024x128 (shapeCast S1x128 x3 shapeCasts_S1x128_S1x128) broadcasts_S1x128_S1024x128))

/-- The second hidden block. -/
def act2 : FVec Ideal S1024x128 .f32 :=
  tanh (addf (matmul (φ₁ := .f32) (φ₂ := .f32) dot_S1024x128_S128x128_S1024x128_1_0_0_1_n_n none (act1 x0 x1 x3) x8 (constant S1024x128 .f32 0x00000000#32))
    (broadcastTo S1024x128 (shapeCast S1x128 x10 shapeCasts_S1x128_S1x128) broadcasts_S1x128_S1024x128))

/-- The third hidden block. -/
def act3 : FVec Ideal S1024x128 .f32 :=
  tanh (addf (matmul (φ₁ := .f32) (φ₂ := .f32) dot_S1024x128_S128x128_S1024x128_1_0_0_1_n_n none (act2 x0 x1 x3 x8 x10) x15 (constant S1024x128 .f32 0x00000000#32))
    (broadcastTo S1024x128 (shapeCast S1x128 x17 shapeCasts_S1x128_S1x128) broadcasts_S1x128_S1024x128))

/-- The stored block is the output layer over the third hidden block: the body's operations, in order. -/
theorem payload_eq :
    k0_pay1 (F := Ideal) x0 x1 x3 x8 x10 x15 x17 x22 x24
      = addf (matmul (φ₁ := .f32) (φ₂ := .f32) dot_S1024x128_S128x1_S1024x1_1_0_0_1_n_n none (act3 x0 x1 x3 x8 x10 x15 x17) x22 (constant S1024x1 .f32 0x00000000#32))
          (broadcastTo S1024x1 (shapeCast S1x1 x24 shapeCasts_S1x1_S1x1) broadcasts_S1x1_S1024x1) := rfl

/-- Entry `(p, n)` of the first hidden block is hidden unit `n` of row `p` of the input block. -/
theorem act1_at (p : Fin 1024) (n : Fin 128) :
    act1 x0 x1 x3 (ix2 p n) = hid1 (rowOf x0 p) x1 (asVector x3) n :=
  congrArg Ideal.tanh (congrArg₂ (· + ·) (product_in x0 x1 p n) (bias_mid x3 _ _ p n))

/-- Entry `(p, n)` of the second hidden block: the product's sum runs over the first hidden layer of row `p`. -/
theorem act2_at (p : Fin 1024) (n : Fin 128) :
    act2 x0 x1 x3 x8 x10 (ix2 p n) = hid2 (rowOf x0 p) x1 (asVector x3) x8 (asVector x10) n := by
  have hs : matmul (φ₁ := .f32) (φ₂ := .f32) dot_S1024x128_S128x128_S1024x128_1_0_0_1_n_n none (act1 x0 x1 x3) x8 (constant S1024x128 .f32 0x00000000#32) (ix2 p n)
      = ∑ k : Fin 128, hid1 (rowOf x0 p) x1 (asVector x3) k * x8 (ix2 k n) :=
    (product_mid (act1 x0 x1 x3) x8 p n).trans (Finset.sum_congr rfl fun k _ => by rw [act1_at])
  exact congrArg Ideal.tanh (congrArg₂ (· + ·) hs (bias_mid x10 _ _ p n))

/-- Entry `(p, n)` of the third hidden block. -/
theorem act3_at (p : Fin 1024) (n : Fin 128) :
    act3 x0 x1 x3 x8 x10 x15 x17 (ix2 p n) = hid3 (rowOf x0 p) x1 (asVector x3) x8 (asVector x10) x15 (asVector x17) n := by
  have hs : matmul (φ₁ := .f32) (φ₂ := .f32) dot_S1024x128_S128x128_S1024x128_1_0_0_1_n_n none (act2 x0 x1 x3 x8 x10) x15 (constant S1024x128 .f32 0x00000000#32) (ix2 p n)
      = ∑ k : Fin 128, hid2 (rowOf x0 p) x1 (asVector x3) x8 (asVector x10) k * x15 (ix2 k n) :=
    (product_mid (act2 x0 x1 x3 x8 x10) x15 p n).trans (Finset.sum_congr rfl fun k _ => by rw [act2_at])
  exact congrArg Ideal.tanh (congrArg₂ (· + ·) hs (bias_mid x17 _ _ p n))

/-- THE STORED ENTRY `(p, q)` is the perceptron on row `p` of the input block. -/
theorem payload_at (p : Fin 1024) (q : Fin 1) :
    k0_pay1 (F := Ideal) x0 x1 x3 x8 x10 x15 x17 x22 x24 (ix2 p q)
      = row (rowOf x0 p) x1 (asVector x3) x8 (asVector x10) x15 (asVector x17) x22 (asVector x24) q := by
  rw [payload_eq]
  have hs : matmul (φ₁ := .f32) (φ₂ := .f32) dot_S1024x128_S128x1_S1024x1_1_0_0_1_n_n none (act3 x0 x1 x3 x8 x10 x15 x17) x22 (constant S1024x1 .f32 0x00000000#32) (ix2 p q)
      = ∑ k : Fin 128, hid3 (rowOf x0 p) x1 (asVector x3) x8 (asVector x10) x15 (asVector x17) k * x22 (ix2 k q) :=
    (product_out (act3 x0 x1 x3 x8 x10 x15 x17) x22 p q).trans (Finset.sum_congr rfl fun k _ => by rw [act3_at])
  exact congrArg₂ (· + ·) hs (bias_out x24 _ _ p q)

/-- The stored block as a whole is the perceptron over the block of 1024 rows. -/
theorem payload_batch :
    k0_pay1 (F := Ideal) x0 x1 x3 x8 x10 x15 x17 x22 x24
      = batch x0 x1 (asVector x3) x8 (asVector x10) x15 (asVector x17) x22 (asVector x24) := by
  funext y
  obtain ⟨p, q, rfl⟩ : ∃ (p : Fin 1024) (q : Fin 1), y = ix2 p q := ⟨y 0, y 1, eq_ix2 y⟩
  rw [batch_ix2]
  exact payload_at x0 x1 x3 x8 x10 x15 x17 x22 x24 p q

end Cert.KernelIdeal.Row

end
-- ==== Proof.KernelBlocks.lean ====
/-
  From blocks to the array. The grid has 128 points; point `t` stages rows `1024 t … 1024 t + 1023`
  of the input and writes back the same rows of the result; every other operand is staged whole at
  every point. The three hidden-layer biases and the output bias reach the region as 1 × N rows, the
  reshapes of the argument vectors, so read as vectors they are the arguments. Since a row of the
  result depends only on the same row of the input, what point `t` writes back is block `t` of
  the perceptron over the whole batch; the 128 blocks cover every row, so the result array ends
  holding the perceptron over the whole batch.
-/
import proofs.«107435_g62079457296719_cont_9to1c4b_771_2_alg».proof.Proof.Gen.KernelIdeal.Value
import proofs.«107435_g62079457296719_cont_9to1c4b_771_2_alg».proof.Proof.KernelRow
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Blocks

open Cert.KernelIdeal Cert.KernelIdeal.Gen Cert.KernelIdeal.Value Cert.KernelIdeal.Row
open Idealize.ShloMosaic Idealize.ShloMosaic.TcCoe Idealize.SL.Sem Idealize.ShloMosaic.ValueIdx Cert.Mlp
open Idealize.ShloMosaic.Pipeline (Dat)

variable (m : (ℓ : Loc nD τ sig) → Buf (Elt Ideal) ℓ) (ρ : Dev nD → PrngReg)

/-! ## The arguments, and the result as one function of them -/

abbrev argX (c : Dev nD) : S131072x3.Idx → EReal := m ((c : Thread nD τ).loc main_arg0)
abbrev argW1 (c : Dev nD) : S3x128.Idx → EReal := m ((c : Thread nD τ).loc main_arg1)
abbrev argB1 (c : Dev nD) : S128.Idx → EReal := m ((c : Thread nD τ).loc main_arg2)
abbrev argW2 (c : Dev nD) : S128x128.Idx → EReal := m ((c : Thread nD τ).loc main_arg3)
abbrev argB2 (c : Dev nD) : S128.Idx → EReal := m ((c : Thread nD τ).loc main_arg4)
abbrev argW3 (c : Dev nD) : S128x128.Idx → EReal := m ((c : Thread nD τ).loc main_arg5)
abbrev argB3 (c : Dev nD) : S128.Idx → EReal := m ((c : Thread nD τ).loc main_arg6)
abbrev argW4 (c : Dev nD) : S128x1.Idx → EReal := m ((c : Thread nD τ).loc main_arg7)
abbrev argB4 (c : Dev nD) : S1.Idx → EReal := m ((c : Thread nD τ).loc main_arg8)

/-- The perceptron over the whole batch of the arguments as launched. -/
def result (c : Dev nD) : S131072x1.Idx → EReal :=
  batch (argX m c) (argW1 m c) (argB1 m c) (argW2 m c) (argB2 m c) (argW3 m c) (argB3 m c) (argW4 m c) (argB4 m c)

/-! ## The index maps, decided over the 128 points -/

theorem hz : (![0, 0] : Fin 2 → Nat) = fun _ => 0 := funext fun a => by fin_cases a <;> rfl

/-- The input's and the result's block index is `(t, 0)`; every other window's is `(0, 0)`. -/
theorem index_facts : ∀ t : Fin cfg0.N,
    (win0_0.index t (0 : Fin 2) = t.val ∧ win0_0.index t (1 : Fin 2) = 0)
    ∧ (win0_9.index t (0 : Fin 2) = t.val ∧ win0_9.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Row `p` of block `t` is a row of the batch. -/
theorem row_lt (t : Fin cfg0.N) (p : Fin 1024) : t.val * 1024 + p.val < 131072 := by
  have ht : t.val < 128 := Nat.lt_of_lt_of_eq t.isLt N_0
  have := p.isLt; omega

/-- Row `p` of block `t`, as a row of the batch. -/
abbrev batchRow (t : Fin cfg0.N) (p : Fin 1024) : Fin 131072 := ⟨t.val * 1024 + p.val, row_lt t p⟩

/-! ## The input blocks as parts of the arguments -/

/-- Block `t` of the input: its row `p` is row `1024 t + p` of the argument. -/
theorem input_block (c : Dev nD) (t : Fin cfg0.N) (p : Fin 1024) :
    rowOf (iblk m c 0 t : Vec Ideal S1024x3 .f32) p = rowOf (argX m c) (batchRow t p) := by
  funext j
  have e : ((cfg0.win 0).blk t).view.emb (ix2 p j) = ix2 (batchRow t p) j := funext fun a => Fin.ext (by
    match a with
    | ⟨0, _⟩ => show win0_0.index t (0 : Fin 2) * 1024 + 1 * p.val = t.val * 1024 + p.val; rw [(index_facts t).1.1]; omega
    | ⟨1, _⟩ => show win0_0.index t (1 : Fin 2) * 3 + 1 * j.val = j.val; rw [(index_facts t).1.2]; omega)
  show V m c main_arg0 (((cfg0.win 0).blk t).view.emb (ix2 p j)) = m ((c : Thread nD τ).loc main_arg0) (ix2 (batchRow t p) j)
  rw [e, V_main_arg0]

/-- A weight matrix staged whole: its block at any point is the argument. -/
theorem weights1_block (c : Dev nD) (t : Fin cfg0.N) : (iblk m c 1 t : Vec Ideal S3x128 .f32) = argW1 m c := by
  funext y
  obtain ⟨a, b, rfl⟩ : ∃ (a : Fin 3) (b : Fin 128), y = ix2 a b := ⟨y 0, y 1, eq_ix2 y⟩
  have e : ((cfg0.win 1).blk t).view.emb (ix2 a b) = ix2 a b := funext fun d => Fin.ext (by
    match d with
    | ⟨0, _⟩ => show win0_1.index t (0 : Fin 2) * 3 + 1 * a.val = a.val; rw [(index_facts t).2.2.1.1]; omega
    | ⟨1, _⟩ => show win0_1.index t (1 : Fin 2) * 128 + 1 * b.val = b.val; rw [(index_facts t).2.2.1.2]; omega)
  show V m c main_arg1 (((cfg0.win 1).blk t).view.emb (ix2 a b)) = m ((c : Thread nD τ).loc main_arg1) (ix2 a b)
  rw [e, V_main_arg1]

theorem weights2_block (c : Dev nD) (t : Fin cfg0.N) : (iblk m c 3 t : Vec Ideal S128x128 .f32) = argW2 m c := by
  funext y
  obtain ⟨a, b, rfl⟩ : ∃ (a : Fin 128) (b : Fin 128), y = ix2 a b := ⟨y 0, y 1, eq_ix2 y⟩
  have e : ((cfg0.win 3).blk t).view.emb (ix2 a b) = ix2 a b := funext fun d => Fin.ext (by
    match d with
    | ⟨0, _⟩ => show win0_3.index t (0 : Fin 2) * 128 + 1 * a.val = a.val; rw [(index_facts t).2.2.2.2.1.1]; omega
    | ⟨1, _⟩ => show win0_3.index t (1 : Fin 2) * 128 + 1 * b.val = b.val; rw [(index_facts t).2.2.2.2.1.2]; omega)
  show V m c main_arg3 (((cfg0.win 3).blk t).view.emb (ix2 a b)) = m ((c : Thread nD τ).loc main_arg3) (ix2 a b)
  rw [e, V_main_arg3]

theorem weights3_block (c : Dev nD) (t : Fin cfg0.N) : (iblk m c 5 t : Vec Ideal S128x128 .f32) = argW3 m c := by
  funext y
  obtain ⟨a, b, rfl⟩ : ∃ (a : Fin 128) (b : Fin 128), y = ix2 a b := ⟨y 0, y 1, eq_ix2 y⟩
  have e : ((cfg0.win 5).blk t).view.emb (ix2 a b) = ix2 a b := funext fun d => Fin.ext (by
    match d with
    | ⟨0, _⟩ => show win0_5.index t (0 : Fin 2) * 128 + 1 * a.val = a.val; rw [(index_facts t).2.2.2.2.2.2.1.1]; omega
    | ⟨1, _⟩ => show win0_5.index t (1 : Fin 2) * 128 + 1 * b.val = b.val; rw [(index_facts t).2.2.2.2.2.2.1.2]; omega)
  show V m c main_arg5 (((cfg0.win 5).blk t).view.emb (ix2 a b)) = m ((c : Thread nD τ).loc main_arg5) (ix2 a b)
  rw [e, V_main_arg5]

theorem weights4_block (c : Dev nD) (t : Fin cfg0.N) : (iblk m c 7 t : Vec Ideal S128x1 .f32) = argW4 m c := by
  funext y
  obtain ⟨a, b, rfl⟩ : ∃ (a : Fin 128) (b : Fin 1), y = ix2 a b := ⟨y 0, y 1, eq_ix2 y⟩
  have e : ((cfg0.win 7).blk t).view.emb (ix2 a b) = ix2 a b := funext fun d => Fin.ext (by
    match d with
    | ⟨0, _⟩ => show win0_7.index t (0 : Fin 2) * 128 + 1 * a.val = a.val; rw [(index_facts t).2.2.2.2.2.2.2.2.1.1]; omega
    | ⟨1, _⟩ => show win0_7.index t (1 : Fin 2) * 1 + 1 * b.val = b.val; rw [(index_facts t).2.2.2.2.2.2.2.2.1.2]; omega)
  show V m c main_arg7 (((cfg0.win 7).blk t).view.emb (ix2 a b)) = m ((c : Thread nD τ).loc main_arg7) (ix2 a b)
  rw [e, V_main_arg7]

/-! ## The bias rows: reshapes of the argument vectors, written before the region -/

/-- A vector of N entries reshaped to a 1 × N row and read back as a vector is the vector. -/
theorem asVector_reshape {N : Nat} (b : (⟨1, ![N]⟩ : Shape).Idx → EReal)
    (h : (⟨1, ![N]⟩ : Shape).ShapeCasts ⟨2, ![1, N]⟩) : asVector (shapeCast ⟨2, ![1, N]⟩ b h) = b := by
  funext j
  obtain ⟨n, rfl⟩ : ∃ n : Fin N, j = ix1 n := ⟨j 0, eq_ix1 j⟩
  show shapeCast ⟨2, ![1, N]⟩ b h (ix2 0 n) = b (ix1 n)
  refine (shapeCast_addUnit_apply ![N] b h (ix2 0 n)).trans (congrArg b (funext fun a => ?_))
  match a with
  | ⟨0, _⟩ => rfl

theorem V_bias1 (c : Dev nD) : (V m c main_v0 : S1x128.Idx → EReal) = shapeCast S1x128 (argB1 m c) shapeCasts_S128_S1x128 := by
  dsimp only [V, hostOps0]; after_results; rfl
theorem V_bias2 (c : Dev nD) : (V m c main_v1 : S1x128.Idx → EReal) = shapeCast S1x128 (argB2 m c) shapeCasts_S128_S1x128 := by
  dsimp only [V, hostOps0]; after_results; rfl
theorem V_bias3 (c : Dev nD) : (V m c main_v2 : S1x128.Idx → EReal) = shapeCast S1x128 (argB3 m c) shapeCasts_S128_S1x128 := by
  dsimp only [V, hostOps0]; after_results; rfl
theorem V_bias4 (c : Dev nD) : (V m c main_v3 : S1x1.Idx → EReal) = shapeCast S1x1 (argB4 m c) shapeCasts_S1_S1x1 := by
  dsimp only [V, hostOps0]; after_results; rfl

/-- A bias row staged whole: read as a vector, its block at any point is the argument vector. -/
theorem bias1_block (c : Dev nD) (t : Fin cfg0.N) : asVector (iblk m c 2 t : Vec Ideal S1x128 .f32) = argB1 m c := by
  have hb : (iblk m c 2 t : Vec Ideal S1x128 .f32) = (V m c main_v0 : S1x128.Idx → EReal) := by
    funext y
    obtain ⟨a, b, rfl⟩ : ∃ (a : Fin 1) (b : Fin 128), y = ix2 a b := ⟨y 0, y 1, eq_ix2 y⟩
    have e : ((cfg0.win 2).blk t).view.emb (ix2 a b) = ix2 a b := funext fun d => Fin.ext (by
      match d with
      | ⟨0, _⟩ => show win0_2.index t (0 : Fin 2) * 1 + 1 * a.val = a.val; rw [(index_facts t).2.2.2.1.1]; omega
      | ⟨1, _⟩ => show win0_2.index t (1 : Fin 2) * 128 + 1 * b.val = b.val; rw [(index_facts t).2.2.2.1.2]; omega)
    show V m c main_v0 (((cfg0.win 2).blk t).view.emb (ix2 a b)) = V m c main_v0 (ix2 a b)
    rw [e]
  rw [hb, V_bias1]
  exact asVector_reshape (argB1 m c) _

theorem bias2_block (c : Dev nD) (t : Fin cfg0.N) : asVector (iblk m c 4 t : Vec Ideal S1x128 .f32) = argB2 m c := by
  have hb : (iblk m c 4 t : Vec Ideal S1x128 .f32) = (V m c main_v1 : S1x128.Idx → EReal) := by
    funext y
    obtain ⟨a, b, rfl⟩ : ∃ (a : Fin 1) (b : Fin 128), y = ix2 a b := ⟨y 0, y 1, eq_ix2 y⟩
    have e : ((cfg0.win 4).blk t).view.emb (ix2 a b) = ix2 a b := funext fun d => Fin.ext (by
      match d with
      | ⟨0, _⟩ => show win0_4.index t (0 : Fin 2) * 1 + 1 * a.val = a.val; rw [(index_facts t).2.2.2.2.2.1.1]; omega
      | ⟨1, _⟩ => show win0_4.index t (1 : Fin 2) * 128 + 1 * b.val = b.val; rw [(index_facts t).2.2.2.2.2.1.2]; omega)
    show V m c main_v1 (((cfg0.win 4).blk t).view.emb (ix2 a b)) = V m c main_v1 (ix2 a b)
    rw [e]
  rw [hb, V_bias2]
  exact asVector_reshape (argB2 m c) _

theorem bias3_block (c : Dev nD) (t : Fin cfg0.N) : asVector (iblk m c 6 t : Vec Ideal S1x128 .f32) = argB3 m c := by
  have hb : (iblk m c 6 t : Vec Ideal S1x128 .f32) = (V m c main_v2 : S1x128.Idx → EReal) := by
    funext y
    obtain ⟨a, b, rfl⟩ : ∃ (a : Fin 1) (b : Fin 128), y = ix2 a b := ⟨y 0, y 1, eq_ix2 y⟩
    have e : ((cfg0.win 6).blk t).view.emb (ix2 a b) = ix2 a b := funext fun d => Fin.ext (by
      match d with
      | ⟨0, _⟩ => show win0_6.index t (0 : Fin 2) * 1 + 1 * a.val = a.val; rw [(index_facts t).2.2.2.2.2.2.2.1.1]; omega
      | ⟨1, _⟩ => show win0_6.index t (1 : Fin 2) * 128 + 1 * b.val = b.val; rw [(index_facts t).2.2.2.2.2.2.2.1.2]; omega)
    show V m c main_v2 (((cfg0.win 6).blk t).view.emb (ix2 a b)) = V m c main_v2 (ix2 a b)
    rw [e]
  rw [hb, V_bias3]
  exact asVector_reshape (argB3 m c) _

theorem bias4_block (c : Dev nD) (t : Fin cfg0.N) : asVector (iblk m c 8 t : Vec Ideal S1x1 .f32) = argB4 m c := by
  have hb : (iblk m c 8 t : Vec Ideal S1x1 .f32) = (V m c main_v3 : S1x1.Idx → EReal) := by
    funext y
    obtain ⟨a, b, rfl⟩ : ∃ (a : Fin 1) (b : Fin 1), y = ix2 a b := ⟨y 0, y 1, eq_ix2 y⟩
    have e : ((cfg0.win 8).blk t).view.emb (ix2 a b) = ix2 a b := funext fun d => Fin.ext (by
      match d with
      | ⟨0, _⟩ => show win0_8.index t (0 : Fin 2) * 1 + 1 * a.val = a.val; rw [(index_facts t).2.2.2.2.2.2.2.2.2.1]; omega
      | ⟨1, _⟩ => show win0_8.index t (1 : Fin 2) * 1 + 1 * b.val = b.val; rw [(index_facts t).2.2.2.2.2.2.2.2.2.2]; omega)
    show V m c main_v3 (((cfg0.win 8).blk t).view.emb (ix2 a b)) = V m c main_v3 (ix2 a b)
    rw [e]
  rw [hb, V_bias4]
  exact asVector_reshape (argB4 m c) _

/-! ## What point `t` writes back, the cover, and the array after the run -/

/-- WHAT POINT `t` WRITES BACK is block `t` of the perceptron over the whole batch: the stored block is the
    perceptron over the block of rows the point staged, those are rows `1024 t …` of the input, and the
    weights and biases are the arguments. -/
theorem flushed_eq (c : Dev nD) (t : Fin cfg0.N) :
    (dats m 0 c).flushed 9 t = ((cfg0.win 9).blk t).view.read (Elt Ideal) (result m c) := by
  rw [flushed9]
  unfold out0_9
  rw [View.canon_unit_zero hz]
  simp only [View.ld_unit_zero (S := S1024x3) hz, View.ld_unit_zero (S := S3x128) hz, View.ld_unit_zero (S := S1x128) hz,
    View.ld_unit_zero (S := S128x128) hz, View.ld_unit_zero (S := S128x1) hz, View.ld_unit_zero (S := S1x1) hz]
  funext y
  obtain ⟨p, q, rfl⟩ : ∃ (p : Fin 1024) (q : Fin 1), y = ix2 p q := ⟨y 0, y 1, eq_ix2 y⟩
  have e : ((cfg0.win 9).blk t).view.emb (ix2 p q) = ix2 (batchRow t p) q := funext fun d => Fin.ext (by
    match d with
    | ⟨0, _⟩ => show win0_9.index t (0 : Fin 2) * 1024 + 1 * p.val = t.val * 1024 + p.val; rw [(index_facts t).2.1.1]; omega
    | ⟨1, _⟩ => show win0_9.index t (1 : Fin 2) * 1 + 1 * q.val = q.val; rw [(index_facts t).2.1.2]; omega)
  show k0_pay1 (F := Ideal) (iblk m c 0 t) (iblk m c 1 t) (iblk m c 2 t) (iblk m c 3 t) (iblk m c 4 t) (iblk m c 5 t) (iblk m c 6 t) (iblk m c 7 t) (iblk m c 8 t) (ix2 p q)
    = result m c (((cfg0.win 9).blk t).view.emb (ix2 p q))
  rw [e]
  refine (payload_at (iblk m c 0 t) (iblk m c 1 t) (iblk m c 2 t) (iblk m c 3 t) (iblk m c 4 t) (iblk m c 5 t) (iblk m c 6 t) (iblk m c 7 t) (iblk m c 8 t) p q).trans ?_
  rw [input_block m c t p, weights1_block m c t, bias1_block m c t, weights2_block m c t, bias2_block m c t,
    weights3_block m c t, bias3_block m c t, weights4_block m c t, bias4_block m c t]
  rfl

/-- An index of the result is in point `t`'s block iff each coordinate is in the block's range on its axis. -/
theorem mem_block (t : Fin cfg0.N) (i : S131072x1.Idx) :
    i ∈ ((cfg0.win 9).blk t).view.set ↔ ∀ a : Fin 2, win0_9.index t a * S1024x1.size a ≤ (i a).val ∧ (i a).val < win0_9.index t a * S1024x1.size a + S1024x1.size a := by
  show i ∈ ((View.whole main_v4).slice (win0_9.rect t)).set ↔ _
  rw [View.set_slice_whole, Rect.mem_set_unit]
  exact Iff.rfl

/-- THE COVER: row `r` of the result is in the block of point `r / 1024`. -/
theorem covered (i : S131072x1.Idx) : ∃ t : Fin cfg0.N, (cfg0.win 9).flush t = true ∧ i ∈ ((cfg0.win 9).blk t).view.set := by
  have hi0 : (i 0).val < 131072 := (i 0).isLt
  have hi1 : (i 1).val < 1 := (i 1).isLt
  have hN : cfg0.N = 128 := N_0
  refine ⟨⟨(i 0).val / 1024, by rw [hN]; omega⟩, flush0_9 _, ?_⟩
  rw [mem_block]
  obtain ⟨-, ⟨h0, h1⟩, -⟩ := index_facts ⟨(i 0).val / 1024, by rw [hN]; omega⟩
  intro a
  match a with
  | ⟨0, _⟩ =>
    show win0_9.index ⟨(i 0).val / 1024, _⟩ (0 : Fin 2) * 1024 ≤ (i 0).val ∧ (i 0).val < win0_9.index ⟨(i 0).val / 1024, _⟩ (0 : Fin 2) * 1024 + 1024
    rw [h0]; show (i 0).val / 1024 * 1024 ≤ (i 0).val ∧ (i 0).val < (i 0).val / 1024 * 1024 + 1024; omega
  | ⟨1, _⟩ =>
    show win0_9.index ⟨(i 0).val / 1024, _⟩ (1 : Fin 2) * 1 ≤ (i 1).val ∧ (i 1).val < win0_9.index ⟨(i 0).val / 1024, _⟩ (1 : Fin 2) * 1 + 1
    rw [h1]; omega

/-- THE ARRAY after the run is the perceptron over the whole batch. -/
theorem final (c : Dev nD) : (dats m 0 c).arrAt 9 cfg0.N = result m c :=
  (dats m 0 c).arrAt_eq_of_cover 9 (result m c) (fun t _ => flushed_eq m c t) covered

/-- The run, read: the result array at the perceptron over the batch, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Blocks

end
-- ==== Proof.lean ====
/- The five claims of this certificate.
   Both programs compute a perceptron 3 → 128 → 128 → 128 → 1 with tanh after each hidden layer
   (`Cert.Mlp`): the reference over the whole batch of 131072 rows at once, the kernel 1024 rows at a
   time with the weights resident. On the extended reals a matrix product is the plain sum of
   products over the contracted coordinate on both sides, tanh is one function, and a change of
   tiling changes nothing because each row of the result depends on the same row of the input only;
   so both result arrays are `Cert.Mlp.batch` of the arguments, entry by entry, and no law that
   would need finite inputs is used. The three frames are the generated ones (the reference's is
   its generated run with the result forgotten), and the idealization rewrote nothing. -/
import proofs.«107435_g62079457296719_cont_9to1c4b_771_2_alg».proof.Defs
import proofs.«107435_g62079457296719_cont_9to1c4b_771_2_alg».proof.Proof.Gen.Kernel
import proofs.«107435_g62079457296719_cont_9to1c4b_771_2_alg».proof.Proof.Gen.Kernel.Frame
import proofs.«107435_g62079457296719_cont_9to1c4b_771_2_alg».proof.Proof.Gen.KernelIdeal
import proofs.«107435_g62079457296719_cont_9to1c4b_771_2_alg».proof.Proof.Gen.KernelIdeal.Frame
import proofs.«107435_g62079457296719_cont_9to1c4b_771_2_alg».proof.Proof.Gen.KernelIdeal.Value
import proofs.«107435_g62079457296719_cont_9to1c4b_771_2_alg».proof.Proof.Gen.ReferenceIdeal
import proofs.«107435_g62079457296719_cont_9to1c4b_771_2_alg».proof.Proof.Gen.ReferenceIdeal.Run
import proofs.«107435_g62079457296719_cont_9to1c4b_771_2_alg».proof.Proof.Gen.ReferenceIdeal.Read
import proofs.«107435_g62079457296719_cont_9to1c4b_771_2_alg».proof.Proof.Gen.Pre_finite_inputs
import proofs.«107435_g62079457296719_cont_9to1c4b_771_2_alg».proof.Proof.RefAsMlp
import proofs.«107435_g62079457296719_cont_9to1c4b_771_2_alg».proof.Proof.KernelBlocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine arguments, the kernel's result array ends at the perceptron over the
    batch of its arguments, and the reference's at the perceptron over the batch of its own: the same array. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.AsMlp.result_eq]
  obtain ⟨h0, h1, h2, h3, h4, h5, h6, h7, h8⟩ := hagree c
  rw [h0, h1, h2, h3, h4, h5, h6, h7, h8]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
